-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2000x26 : Shape := ⟨3, ![64, 2000, 26]⟩
abbrev S_ : Shape := ⟨0, ![]⟩

class Facts : Prop where
  bcast_S_S64x2000x26 : S_.BroadcastsInDim S64x2000x26 (![] : Fin 0 → Fin S64x2000x26.rank)
  reducesTo_S64x2000x26_S_d0_1_2 : S64x2000x26.ReducesTo [0, 1, 2] S_
  h_S_ : 0 < S_.numel

variable [Facts]

def fn {F : FTy → Type} [FloatOps F] (main_arg0 : FVec F S64x2000x26 .f32) : IVec S_ 1 :=
  let main_v0 : FVec F S64x2000x26 .f32 := Host.absf main_arg0
  let main_cst : FVec F S_ .f32 := constant S_ .f32 0x7F800000#32
  let main_v1 : FVec F S64x2000x26 .f32 := broadcastInDim S64x2000x26 ![] bcast_S_S64x2000x26 main_cst
  let main_v2 : IVec S64x2000x26 1 := cmpf .olt main_v0 main_v1
  let main_c : IVec S_ 1 := constantI S_ 1 1#1
  let main_v3 : IVec S_ 1 := (fun x v => Host.reduce IntOp.andi x v reducesTo_S64x2000x26_S_d0_1_2 h_S_) main_v2 main_c
  main_v3
-- ==== Kernel.lean ====
abbrev S64x2000x26 : Shape := ⟨3, ![64, 2000, 26]⟩
abbrev S_ : Shape := ⟨0, ![]⟩
abbrev S64x2018x26 : Shape := ⟨3, ![64, 2018, 26]⟩
abbrev S64x2000x494 : Shape := ⟨3, ![64, 2000, 494]⟩
abbrev S1x2018x26 : Shape := ⟨3, ![1, 2018, 26]⟩
abbrev S1x2000x494 : Shape := ⟨3, ![1, 2000, 494]⟩
abbrev S1x2000x26 : Shape := ⟨3, ![1, 2000, 26]⟩
abbrev S2000x26 : Shape := ⟨2, ![2000, 26]⟩
abbrev S2000x494 : Shape := ⟨2, ![2000, 494]⟩
abbrev S128000x494 : Shape := ⟨2, ![128000, 494]⟩

abbrev nBuf : Space → Nat
  | .hbm => 6
  | .vmem => 4
  | .smem => 0
  | _ => 0

abbrev bufTy : (tb : Table) → Fin (tcTables nBuf tb) → BufTy
  | .hbm, ⟨0, _⟩ => ⟨S64x2000x26, .f32⟩
  | .hbm, ⟨1, _⟩ => ⟨S_, .i32⟩
  | .hbm, ⟨2, _⟩ => ⟨S_, .f32⟩
  | .hbm, ⟨3, _⟩ => ⟨S64x2018x26, .f32⟩
  | .hbm, ⟨4, _⟩ => ⟨S64x2000x494, .f32⟩
  | .hbm, ⟨5, _⟩ => ⟨S128000x494, .f32⟩
  | .local _ .vmem, ⟨0, _⟩ => ⟨S1x2018x26, .f32⟩
  | .local _ .vmem, ⟨1, _⟩ => ⟨S1x2018x26, .f32⟩
  | .local _ .vmem, ⟨2, _⟩ => ⟨S1x2000x494, .f32⟩
  | .local _ .vmem, ⟨3, _⟩ => ⟨S1x2000x494, .f32⟩
  | _, _ => ⟨S64x2000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2018x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x494 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S64x2000x26_S64x2018x26_000_990_000 : S64x2000x26.Pads (![0, 9, 0] : Fin 3 → Nat) ![0, 9, 0] ![0, 0, 0] S64x2018x26
  h_S_ : 0 < S_.numel
  inb_S1x2018x26_S1x2000x26_0_0_0 : ∀ a, (![0, 0, 0] : Fin 3 → Nat) a + S1x2000x26.size a ≤ S1x2018x26.size a
  h_S1x2000x26 : 0 < S1x2000x26.numel
  shapeCasts_S1x2000x26_S2000x26 : S1x2000x26.ShapeCasts S2000x26
  inb_S1x2018x26_S1x2000x26_0_1_0 : ∀ a, (![0, 1, 0] : Fin 3 → Nat) a + S1x2000x26.size a ≤ S1x2018x26.size a
  inb_S1x2018x26_S1x2000x26_0_2_0 : ∀ a, (![0, 2, 0] : Fin 3 → Nat) a + S1x2000x26.size a ≤ S1x2018x26.size a
  inb_S1x2018x26_S1x2000x26_0_3_0 : ∀ a, (![0, 3, 0] : Fin 3 → Nat) a + S1x2000x26.size a ≤ S1x2018x26.size a
  inb_S1x2018x26_S1x2000x26_0_4_0 : ∀ a, (![0, 4, 0] : Fin 3 → Nat) a + S1x2000x26.size a ≤ S1x2018x26.size a
  inb_S1x2018x26_S1x2000x26_0_5_0 : ∀ a, (![0, 5, 0] : Fin 3 → Nat) a + S1x2000x26.size a ≤ S1x2018x26.size a
  inb_S1x2018x26_S1x2000x26_0_6_0 : ∀ a, (![0, 6, 0] : Fin 3 → Nat) a + S1x2000x26.size a ≤ S1x2018x26.size a
  inb_S1x2018x26_S1x2000x26_0_7_0 : ∀ a, (![0, 7, 0] : Fin 3 → Nat) a + S1x2000x26.size a ≤ S1x2018x26.size a
  inb_S1x2018x26_S1x2000x26_0_8_0 : ∀ a, (![0, 8, 0] : Fin 3 → Nat) a + S1x2000x26.size a ≤ S1x2018x26.size a
  inb_S1x2018x26_S1x2000x26_0_9_0 : ∀ a, (![0, 9, 0] : Fin 3 → Nat) a + S1x2000x26.size a ≤ S1x2018x26.size a
  inb_S1x2018x26_S1x2000x26_0_10_0 : ∀ a, (![0, 10, 0] : Fin 3 → Nat) a + S1x2000x26.size a ≤ S1x2018x26.size a
  inb_S1x2018x26_S1x2000x26_0_11_0 : ∀ a, (![0, 11, 0] : Fin 3 → Nat) a + S1x2000x26.size a ≤ S1x2018x26.size a
  inb_S1x2018x26_S1x2000x26_0_12_0 : ∀ a, (![0, 12, 0] : Fin 3 → Nat) a + S1x2000x26.size a ≤ S1x2018x26.size a
  inb_S1x2018x26_S1x2000x26_0_13_0 : ∀ a, (![0, 13, 0] : Fin 3 → Nat) a + S1x2000x26.size a ≤ S1x2018x26.size a
  inb_S1x2018x26_S1x2000x26_0_14_0 : ∀ a, (![0, 14, 0] : Fin 3 → Nat) a + S1x2000x26.size a ≤ S1x2018x26.size a
  inb_S1x2018x26_S1x2000x26_0_15_0 : ∀ a, (![0, 15, 0] : Fin 3 → Nat) a + S1x2000x26.size a ≤ S1x2018x26.size a
  inb_S1x2018x26_S1x2000x26_0_16_0 : ∀ a, (![0, 16, 0] : Fin 3 → Nat) a + S1x2000x26.size a ≤ S1x2018x26.size a
  inb_S1x2018x26_S1x2000x26_0_17_0 : ∀ a, (![0, 17, 0] : Fin 3 → Nat) a + S1x2000x26.size a ≤ S1x2018x26.size a
  inb_S1x2018x26_S1x2000x26_0_18_0 : ∀ a, (![0, 18, 0] : Fin 3 → Nat) a + S1x2000x26.size a ≤ S1x2018x26.size a
  concatenates_S2000x26_S2000x26_S2000x26_S2000x26_S2000x26_S2000x26_S2000x26_S2000x26_S2000x26_S2000x26_S2000x26_S2000x26_S2000x26_S2000x26_S2000x26_S2000x26_S2000x26_S2000x26_S2000x26_S2000x494_d1 : Shape.Concatenates [S2000x26, S2000x26, S2000x26, S2000x26, S2000x26, S2000x26, S2000x26, S2000x26, S2000x26, S2000x26, S2000x26, S2000x26, S2000x26, S2000x26, S2000x26, S2000x26, S2000x26, S2000x26, S2000x26] S2000x494 1
  inb_S1x2000x494_S1x2000x494_0_0_0 : ∀ a, (![0, 0, 0] : Fin 3 → Nat) a + S1x2000x494.size a ≤ S1x2000x494.size a
  h_S1x2000x494 : 0 < S1x2000x494.numel
  shapeCasts_S1x2000x494_S2000x494 : S1x2000x494.ShapeCasts S2000x494
  shapeCasts_S2000x494_S1x2000x494 : S2000x494.ShapeCasts S1x2000x494
  shapeCasts_S64x2000x494_S128000x494 : S64x2000x494.ShapeCasts S128000x494
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2018x26.size a ≤ S64x2018x26.size a
  hwx0_0 : ∀ i : grid0.Coords, EltTy.bits .f32 = 32 ∨ (Rect.block (s := S64x2018x26) S1x2018x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x494.size a ≤ S64x2000x494.size a
  hwx0_1 : ∀ i : grid0.Coords, EltTy.bits .f32 = 32 ∨ (Rect.block (s := S64x2000x494) S1x2000x494.size (cc0_transform_1 i) (hinb0_1 i)).WholeWords (EltTy.packing .f32)

variable [Facts₀]

abbrev win0_0 : Pipeline.Window sig grid0 :=
  Pipeline.Window.ofSpec (Memref.whole main_v0) S1x2018x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2000x494.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2000x26 : Shape := ⟨3, ![64, 2000, 26]⟩
abbrev S_ : Shape := ⟨0, ![]⟩
abbrev S64x2018x26 : Shape := ⟨3, ![64, 2018, 26]⟩
abbrev S2000 : Shape := ⟨1, ![2000]⟩
abbrev S2000x1 : Shape := ⟨2, ![2000, 1]⟩
abbrev S19 : Shape := ⟨1, ![19]⟩
abbrev S1x19 : Shape := ⟨2, ![1, 19]⟩
abbrev S2000x19 : Shape := ⟨2, ![2000, 19]⟩
abbrev S2000x19x1 : Shape := ⟨3, ![2000, 19, 1]⟩
abbrev S64x2000x19x26 : Shape := ⟨4, ![64, 2000, 19, 26]⟩
abbrev S128000x494 : Shape := ⟨2, ![128000, 494]⟩

abbrev nBuf : Space → Nat
  | .hbm => 21
  | .vmem => 0
  | .smem => 0
  | _ => 0

abbrev bufTy : (tb : Table) → Fin (tcTables nBuf tb) → BufTy
  | .hbm, ⟨0, _⟩ => ⟨S64x2000x26, .f32⟩
  | .hbm, ⟨1, _⟩ => ⟨S_, .i32⟩
  | .hbm, ⟨2, _⟩ => ⟨S_, .f32⟩
  | .hbm, ⟨3, _⟩ => ⟨S64x2018x26, .f32⟩
  | .hbm, ⟨4, _⟩ => ⟨S2000, .i32⟩
  | .hbm, ⟨5, _⟩ => ⟨S2000x1, .i32⟩
  | .hbm, ⟨6, _⟩ => ⟨S19, .i32⟩
  | .hbm, ⟨7, _⟩ => ⟨S1x19, .i32⟩
  | .hbm, ⟨8, _⟩ => ⟨S2000x19, .i32⟩
  | .hbm, ⟨9, _⟩ => ⟨S2000x19, .i32⟩
  | .hbm, ⟨10, _⟩ => ⟨S2000x19, .i32⟩
  | .hbm, ⟨11, _⟩ => ⟨S_, .i32⟩
  | .hbm, ⟨12, _⟩ => ⟨S2000x19, .i32⟩
  | .hbm, ⟨13, _⟩ => ⟨S2000x19, .i1⟩
  | .hbm, ⟨14, _⟩ => ⟨S_, .i32⟩
  | .hbm, ⟨15, _⟩ => ⟨S2000x19, .i32⟩
  | .hbm, ⟨16, _⟩ => ⟨S2000x19, .i32⟩
  | .hbm, ⟨17, _⟩ => ⟨S2000x19, .i32⟩
  | .hbm, ⟨18, _⟩ => ⟨S2000x19x1, .i32⟩
  | .hbm, ⟨19, _⟩ => ⟨S64x2000x19x26, .f32⟩
  | .hbm, ⟨20, _⟩ => ⟨S128000x494, .f32⟩
  | _, _ => ⟨S64x2000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  pads_S64x2000x26_S64x2018x26_000_990_000 : S64x2000x26.Pads (![0, 9, 0] : Fin 3 → Nat) ![0, 9, 0] ![0, 0, 0] S64x2018x26
  h_S_ : 0 < S_.numel
  bcast_S2000_S2000x1_0 : S2000.BroadcastsInDim S2000x1 (![0] : Fin 1 → Fin S2000x1.rank)
  bcast_S19_S1x19_1 : S19.BroadcastsInDim S1x19 (![1] : Fin 1 → Fin S1x19.rank)
  bcast_S2000x1_S2000x19_0_1 : S2000x1.BroadcastsInDim S2000x19 (![0, 1] : Fin 2 → Fin S2000x19.rank)
  bcast_S1x19_S2000x19_0_1 : S1x19.BroadcastsInDim S2000x19 (![0, 1] : Fin 2 → Fin S2000x19.rank)
  bcast_S_S2000x19 : S_.BroadcastsInDim S2000x19 (![] : Fin 0 → Fin S2000x19.rank)
  bcast_S2000x19_S2000x19x1_0_1 : S2000x19.BroadcastsInDim S2000x19x1 (![0, 1] : Fin 2 → Fin S2000x19x1.rank)
  shapeCasts_S64x2000x19x26_S128000x494 : S64x2000x19x26.ShapeCasts S128000x494
  gather_S64x2018x26_S2000x19x1_S64x2000x19x26_03_1_n_n_1_2_64126_wf : GatherDims.WF S64x2018x26 S2000x19x1 S64x2000x19x26 [0, 3] [1] [] [1] [] 2 ![64, 1, 26]

variable [Facts₀]

def gather_S64x2018x26_S2000x19x1_S64x2000x19x26_03_1_n_n_1_2_64126 : GatherDims S64x2018x26 S2000x19x1 S64x2000x19x26 where
  offsetDims := [0, 3]
  collapsedSliceDims := [1]
  operandBatchingDims := []
  startIndicesBatchingDims := []
  startIndexMap := [1]
  indexVectorDim := 2
  sliceSizes := ![64, 1, 26]
  wf := gather_S64x2018x26_S2000x19x1_S64x2000x19x26_03_1_n_n_1_2_64126_wf

class Facts : Prop extends Facts₀ where

variable [Facts]
-- ==== Proof.KernelBody.lean ====
/-
  What the kernel body leaves in its output block, index by index.

  At a grid point the body holds one batch's padded time series `x : [1, 2018, 26]`. It loads the nineteen row ranges
  `x[0, w : w + 2000, :]` (`w = 0 … 18`), drops the unit axis of each, concatenates the nineteen [2000, 26] pieces along
  the column axis into [2000, 494], puts the unit axis back and stores the whole block. Column `q` of a concatenation of
  pieces 26 wide lies in piece `q / 26` at column `q % 26`, so the block's entry `(0, t, q)` is
  `x[0, t + q / 26, q % 26]` (`out_apply`).
-/
import proofs.«105416_j84963043050043_1_alg».proof.Proof.Gen.KernelIdeal.Frame
import Idealize.ShloMosaic.Lib.ValueIdx
import Idealize.ShloMosaic.Lib.Pipeline.Value

set_option maxRecDepth 16384

noncomputable section

namespace Cert.KernelIdeal.Body

open Cert.KernelIdeal Cert.KernelIdeal.Gen Idealize.ShloMosaic Idealize.ShloMosaic.ValueIdx

variable {F : FTy → Type} [FloatOps F]

/-- The row range that starts at row `w` is inside the padded block. -/
theorem shift_inb (w : Fin 19) : ∀ a, (![0, w.val, 0] : Fin 3 → Nat) a + S1x2000x26.size a ≤ S1x2018x26.size a := by
  intro a
  have hw := w.isLt
  match a with
  | ⟨0, _⟩ => show 0 + 1 ≤ 1; omega
  | ⟨1, _⟩ => show w.val + 2000 ≤ 2018; omega
  | ⟨2, _⟩ => show 0 + 26 ≤ 26; omega

/-- Piece `w`: the 2000 rows of the padded block from row `w` on, as a [2000, 26] array. -/
def shifted (x : Vec F S1x2018x26 .f32) (w : Fin 19) : S2000x26.Idx → Elt F .f32 :=
  shapeCast S2000x26 (View.ld x (Rect.unit (s := S1x2018x26) ![0, w.val, 0] S1x2000x26.size (shift_inb w)))
    shapeCasts_S1x2000x26_S2000x26

/-- Its entry `(t, ch)` is the block's `(0, w + t, ch)`. -/
theorem shifted_apply (x : Vec F S1x2018x26 .f32) (w : Fin 19) (t : Fin 2000) (ch : Fin 26) :
    shifted x w (ix2 t ch)
      = x (ix3 (n0 := 1) (n1 := 2018) (n2 := 26) ⟨0, Nat.one_pos⟩ ⟨w.val + t.val, by have := w.isLt; have := t.isLt; omega⟩ ch) := by
  unfold shifted
  refine (shapeCast_apply _ shapeCasts_S1x2000x26_S2000x26 (ix2 t ch)
    (ix3 (n0 := 1) (n1 := 2000) (n2 := 26) ⟨0, Nat.one_pos⟩ t ch) (by
      rw [Shape.rowMajor_val_three, Shape.rowMajor_val_two]
      show (0 * 2000 + t.val) * 26 + ch.val = t.val * 26 + ch.val
      omega)).trans ?_
  refine congrArg x ?_
  funext a
  refine Fin.ext ?_
  match a with
  | ⟨0, _⟩ => rfl
  | ⟨1, _⟩ => show w.val + 1 * t.val = w.val + t.val; omega
  | ⟨2, _⟩ => show 0 + 1 * ch.val = ch.val; omega

theorem hz : (![0, 0, 0] : Fin 3 → Nat) = fun _ => 0 := funext fun a => by fin_cases a <;> rfl

/-- THE BODY'S OUTPUT BLOCK at `(0, t, q)` is the input block at `(0, t + q / 26, q % 26)`. -/
theorem out_apply (x : Vec F S1x2018x26 .f32) (y : S1x2000x494.Idx) :
    out0_1 x y = x (ix3 (n0 := 1) (n1 := 2018) (n2 := 26) ⟨0, Nat.one_pos⟩
      ⟨(y 1).val + (y 2).val / 26, by
        have h1 : (y 1).val < 2000 := (y 1).isLt
        have h2 : (y 2).val < 494 := (y 2).isLt
        omega⟩
      ⟨(y 2).val % 26, Nat.mod_lt _ (by decide)⟩) := by
  have h0 : (y 0).val < 1 := (y 0).isLt
  have h1 : (y 1).val < 2000 := (y 1).isLt
  have h2 : (y 2).val < 494 := (y 2).isLt
  unfold out0_1
  rw [View.canon_unit_zero hz]
  unfold k0_pay2
  refine (shapeCast_apply _ shapeCasts_S2000x494_S1x2000x494 y
    (ix2 (n0 := 2000) (n1 := 494) ⟨(y 1).val, h1⟩ ⟨(y 2).val, h2⟩) (by
      rw [Shape.rowMajor_val_three, Shape.rowMajor_val_two]
      show (y 1).val * 494 + (y 2).val = ((y 0).val * 2000 + (y 1).val) * 494 + (y 2).val
      omega)).trans ?_
  unfold k0_pay1
  show concatenate S2000x494 1 (List.ofFn fun w : Fin 19 => (⟨S2000x26, shifted x w⟩ : (s : Shape) × (s.Idx → Elt F .f32)))
    concatenates_S2000x26_S2000x26_S2000x26_S2000x26_S2000x26_S2000x26_S2000x26_S2000x26_S2000x26_S2000x26_S2000x26_S2000x26_S2000x26_S2000x26_S2000x26_S2000x26_S2000x26_S2000x26_S2000x26_S2000x494_d1
    (ix2 (n0 := 2000) (n1 := 494) ⟨(y 1).val, h1⟩ ⟨(y 2).val, h2⟩) = _
  refine (concatenate_ofFn_apply (t := S2000x494) (s₁ := S2000x26) (1 : Fin 2) (shifted x) _ (show S2000x26.rank = S2000x494.rank from rfl) 26 rfl
    (ix2 (n0 := 2000) (n1 := 494) ⟨(y 1).val, h1⟩ ⟨(y 2).val, h2⟩) ⟨(y 2).val / 26, by omega⟩ rfl
    (ix2 (n0 := 2000) (n1 := 26) ⟨(y 1).val, h1⟩ ⟨(y 2).val % 26, Nat.mod_lt _ (by decide)⟩) rfl
    (fun b hb => by
      match b with
      | ⟨0, _⟩ => rfl
      | ⟨1, _⟩ => exact absurd rfl hb)).trans ?_
  refine (shifted_apply x _ _ _).trans ?_
  refine congrArg x ?_
  funext a
  refine Fin.ext ?_
  match a with
  | ⟨0, _⟩ => rfl
  | ⟨1, _⟩ => show (y 2).val / 26 + (y 1).val = (y 1).val + (y 2).val / 26; omega
  | ⟨2, _⟩ => rfl

end Cert.KernelIdeal.Body

end
-- ==== Proof.Windows.lean ====
/-
  The function both programs compute, over the zero-padded array `xp : [64, 2018, 26]` (the time axis padded by
  nine steps at each end): for batch `b`, time `t` and column `q = 26 w + ch` (window position `w < 19`,
  channel `ch < 26`) the entry is `xp[b, t + w, ch]` — the nineteen consecutive time steps that start at `t`,
  laid side by side. `windows` is that array at shape [64, 2000, 494]; `windowsFlat` is the same entries with
  batch and time merged into one row index `r = 2000 b + t`, shape [128000, 494]; the second is the row-major
  reshape of the first (`shapeCast_windows`).
-/
import Idealize.ShloMosaic.Lib.ValueIdx
import Idealize.ShloMosaic.Lib.Pipeline.Value

noncomputable section

namespace Cert.Windows

open Idealize.ShloMosaic Idealize.ShloMosaic.ValueIdx

abbrev SPad : Shape := ⟨3, ![64, 2018, 26]⟩
abbrev SWin : Shape := ⟨3, ![64, 2000, 494]⟩
abbrev SFlat : Shape := ⟨2, ![128000, 494]⟩

variable {α : Type}

/-- Entry `(b, t, q)` is the padded array at `(b, t + q / 26, q % 26)`. -/
def windows (xp : SPad.Idx → α) : SWin.Idx → α := fun j =>
  xp (ix3 (n0 := 64) (n1 := 2018) (n2 := 26) ⟨(j 0).val, (j 0).isLt⟩
    ⟨(j 1).val + (j 2).val / 26, by
      have h1 : (j 1).val < 2000 := (j 1).isLt
      have h2 : (j 2).val < 494 := (j 2).isLt
      omega⟩
    ⟨(j 2).val % 26, Nat.mod_lt _ (by decide)⟩)

/-- Entry `(r, q)` is the padded array at `(r / 2000, r % 2000 + q / 26, q % 26)`. -/
def windowsFlat (xp : SPad.Idx → α) : SFlat.Idx → α := fun i =>
  xp (ix3 (n0 := 64) (n1 := 2018) (n2 := 26)
    ⟨(i 0).val / 2000, by have h0 : (i 0).val < 128000 := (i 0).isLt; omega⟩
    ⟨(i 0).val % 2000 + (i 1).val / 26, by
      have h1 : (i 1).val < 494 := (i 1).isLt
      omega⟩
    ⟨(i 1).val % 26, Nat.mod_lt _ (by decide)⟩)

/-- Merging batch and time row-major sends row `r` to `(r / 2000, r % 2000)` and keeps the column. -/
theorem shapeCast_windows (xp : SPad.Idx → α) (h : SWin.ShapeCasts SFlat) :
    shapeCast SFlat (windows xp) h = windowsFlat xp := by
  funext i
  have h0 : (i 0).val < 128000 := (i 0).isLt
  have h1 : (i 1).val < 494 := (i 1).isLt
  rw [shapeCast_apply (windows xp) h i
    (ix3 (n0 := 64) (n1 := 2000) (n2 := 494) ⟨(i 0).val / 2000, by omega⟩ ⟨(i 0).val % 2000, Nat.mod_lt _ (by decide)⟩ ⟨(i 1).val, h1⟩)
    (by
      rw [Shape.rowMajor_val_three, Shape.rowMajor_val_two]
      show ((i 0).val / 2000 * 2000 + (i 0).val % 2000) * 494 + (i 1).val = (i 0).val * 494 + (i 1).val
      omega)]
  rfl

end Cert.Windows

end
-- ==== Proof.KernelValue.lean ====
/-
  The kernel program's result array is `windowsFlat` of the padded argument.

  The region's grid has one point per batch `b`; its input block is `xp[b, :, :]` and its output block is row `b` of the
  [64, 2000, 494] array. By `Body.out_apply` what point `b` writes back is `windows xp` read through that block
  (`flushed_eq`); the 64 blocks tile the array (`cover`), so after the region it holds `windows xp` (`final`). The one
  host operation after the region merges batch and time row-major, which gives `windowsFlat xp` (`tail_eq`), and the
  host operations before it make `xp` the zero-padding of the argument (`padded_eq`).
-/
import proofs.«105416_j84963043050043_1_alg».proof.Proof.Gen.KernelIdeal.Frame
import proofs.«105416_j84963043050043_1_alg».proof.Proof.KernelBody
import proofs.«105416_j84963043050043_1_alg».proof.Proof.Windows
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Windows
open Idealize.ShloMosaic.Pipeline (Dat)

variable {F : FTy → Type} [FloatOps F]
variable (m : (ℓ : Loc nD τ sig) → Buf (Elt F) ℓ) (ρ : Dev nD → PrngReg)

/-- The padded array as the region finds it. -/
abbrev padded (c : Dev nD) : Vec F S64x2018x26 .f32 := V m c main_v0

/-- What the region's output array is to hold: the windows of the padded array. -/
abbrev result (c : Dev nD) : Buf (Elt F) ((c : Thread nD τ).loc main_v1) := windows (padded m c)

/-- The index maps, decided over the 64 grid points: both windows move along the batch axis together and stay at
    block 0 on the other two axes. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every batch is some point's. -/
theorem idx_onto : ∀ q : Fin 64, ∃ t : Fin cfg0.N, win0_1.index t (0 : Fin 3) = q.val :=
  (by decide +kernel : ∀ q : Fin 64, ∃ t : Fin grid0.N, win0_1.index t (0 : Fin 3) = q.val)

/-- WHAT POINT `t` WRITES BACK is block `t` of the windows of the padded array. -/
theorem flushed_eq (c : Dev nD) (t : Fin cfg0.N) :
    (dats m 0 c).flushed 1 t = ((cfg0.win 1).blk t).view.read (Elt F) (result m c) := by
  show (cfg0.win 1).cut (grid0.coords t) ((dats m 0 c).after 1 t) = _
  rw [after0_1]
  obtain ⟨e0, e1, e2, e3, e4⟩ := idx_facts t
  funext y
  have h0 : (y 0).val < 1 := (y 0).isLt
  have h1 : (y 1).val < 2000 := (y 1).isLt
  have h2 : (y 2).val < 494 := (y 2).isLt
  show out0_1 (iblk m c 0 t) y = windows (padded m c) (((cfg0.win 1).blk t).view.emb y)
  refine (Body.out_apply (iblk m c 0 t) y).trans ?_
  show padded m c (((cfg0.win 0).blk t).view.emb _) = padded m c _
  refine congrArg (padded m c) ?_
  funext a
  refine Fin.ext ?_
  match a with
  | ⟨0, _⟩ =>
    show win0_0.index t (0 : Fin 3) * 1 + 1 * 0 = win0_1.index t (0 : Fin 3) * 1 + 1 * (y 0).val
    omega
  | ⟨1, _⟩ =>
    show win0_0.index t (1 : Fin 3) * 2018 + 1 * ((y 1).val + (y 2).val / 26)
      = (win0_1.index t (1 : Fin 3) * 2000 + 1 * (y 1).val) + (win0_1.index t (2 : Fin 3) * 494 + 1 * (y 2).val) / 26
    omega
  | ⟨2, _⟩ =>
    show win0_0.index t (2 : Fin 3) * 26 + 1 * ((y 2).val % 26) = (win0_1.index t (2 : Fin 3) * 494 + 1 * (y 2).val) % 26
    omega

/-- An index of the array is in point `t`'s block iff each coordinate is in the block's range on its axis. -/
theorem mem_blk (t : Fin cfg0.N) (i : S64x2000x494.Idx) :
    i ∈ ((cfg0.win 1).blk t).view.set ↔ ∀ a : Fin 3, win0_1.index t a * S1x2000x494.size a ≤ (i a).val
      ∧ (i a).val < win0_1.index t a * S1x2000x494.size a + S1x2000x494.size a := by
  show i ∈ ((View.whole main_v1).slice (win0_1.rect t)).set ↔ _
  rw [View.set_slice_whole, Rect.mem_set_unit]
  exact Iff.rfl

/-- The 64 blocks tile the array: entry `(b, t, q)` is in the block of the point whose batch is `b`. -/
theorem cover (i : S64x2000x494.Idx) :
    ∃ t : Fin cfg0.N, (cfg0.win 1).flush t = true ∧ i ∈ ((cfg0.win 1).blk t).view.set := by
  have h0 : (i 0).val < 64 := (i 0).isLt
  have h1 : (i 1).val < 2000 := (i 1).isLt
  have h2 : (i 2).val < 494 := (i 2).isLt
  obtain ⟨t, ht⟩ := idx_onto ⟨(i 0).val, h0⟩
  have ht' : win0_1.index t (0 : Fin 3) = (i 0).val := ht
  obtain ⟨e0, e1, e2, e3, e4⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 2000 ≤ (i 1).val ∧ (i 1).val < win0_1.index t (1 : Fin 3) * 2000 + 2000
    omega
  | ⟨2, _⟩ =>
    show win0_1.index t (2 : Fin 3) * 494 ≤ (i 2).val ∧ (i 2).val < win0_1.index t (2 : Fin 3) * 494 + 494
    omega

/-- THE REGION'S OUTPUT ARRAY after the run: the windows of the padded array. -/
theorem final (c : Dev nD) : (dats m 0 c).arrAt 1 cfg0.N = result m c :=
  (dats m 0 c).arrAt_eq_of_cover 1 (result m c) (fun t _ => flushed_eq m c t) cover

/-- The host operations before the region make the padded array: the argument with nine rows of `(float) 0` before and
    after along the time axis. -/
theorem padded_eq (c : Dev nD) :
    padded m c = pad S64x2018x26 ![0, 9, 0] ![0, 9, 0] ![0, 0, 0] (m ((c.tc : Thread nD τ).loc main_arg0))
      (sitofp .f32 (constantI S_ 32 0#32)) pads_S64x2000x26_S64x2018x26_000_990_000 h_S_ := by
  show V m c main_v0 = _
  dsimp only [V, V0]
  simp only [hostOps0, hostOps0_1, List.flatten_cons, List.flatten_nil, List.append_nil, List.cons_append,
    List.nil_append]
  after_results
  rfl

/-- The host operation after the region merges batch and time: @main's result is the flattened windows. -/
theorem tail_eq (c : Dev nD) :
    Pipeline.afterTail₀ cfgs (dats m) 0 (V0 m) [hostOps1] c main_v2 = windowsFlat (padded m c) := by
  unfold Pipeline.afterTail₀
  show StableHlo.after hostOps1 _ (Proc.devRef .tc main_v2) = _
  after_results
  have key : Pipeline.withArrays (cfgs 0).spec c (V0 m c) (fun w => (dats m 0 c).arrAt w (cfgs 0).N)
      (Proc.devRef .tc main_v1) = result m c :=
    (Pipeline.withArrays_arr spec0 launch0.win.arr_inj c (V0 m c) (fun w => (dats m 0 c).arrAt w cfg0.N) 1).trans (final m c)
  rw [key]
  exact shapeCast_windows (padded m c) shapeCasts_S64x2000x494_S128000x494

/-! ## The run, read -/

/-- Every weakly fair execution of the kernel program terminates with its result at the flattened windows of the
    zero-padded argument, and the argument unchanged. -/
theorem run : θ_run defs (onTc (τ := τ) (main (F := F))) ⟨m, fun _ => 0, ρ⟩ fun r => ∀ c : Dev nD,
      r.2.mem ((c.tc : Thread nD τ).loc main_v2)
        = windowsFlat (pad S64x2018x26 ![0, 9, 0] ![0, 9, 0] ![0, 0, 0] (m ((c.tc : Thread nD τ).loc main_arg0))
            (sitofp .f32 (constantI S_ 32 0#32)) pads_S64x2000x26_S64x2018x26_000_990_000 h_S_)
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((tail_eq m c).trans (congrArg windowsFlat (padded_eq m c))),
        ((h c).2 main_arg0 (Pipeline.mem_restRefs_of main_arg0 (by decide) (by decide))).trans (W_main_arg0 m (dats m) c)⟩)
    (run_main m ρ)

end Cert.KernelIdeal.KValue

end
-- ==== Proof.LibGatherMid.lean ====
/-
  A `stablehlo.gather` that takes rows along the MIDDLE axis of a rank-3 operand, read at an index, for any extents.

  What `x[:, idx, :]` of `x : [A, N, C]` at an integer array `idx : [R, W]` lowers to: offset_dims `[0, 3]`,
  collapsed_slice_dims `[1]`, start_index_map `[1]`, index_vector_dim 2, slice_sizes `[A, 1, C]`, the start indices
  given as `[R, W, 1]`, the result `[A, R, W, C]`. Result element `(a, r, w, c)` is `x[a, s, c]` with `s` the start
  index `idx[r, w, 0]` read as a signed integer and clamped into `[0, N − 1]` (`gather_mid_apply`).

  Beside it, the two facts about 32-bit words that evaluate such a start index when it is a sum of two small
  non-negative numbers guarded by jnp's negative-index wrap (`select (s < 0) (s + N) s`): the guard is not taken and
  the word reads `t + w` (`wrapped_sum`, `toNat_toInt_ofNat`).
-/
import Idealize.ShloMosaic.Lib.ValueIdx
import Idealize.ShloMosaic.Lib.StableHlo.Predicate

noncomputable section

namespace Cert.LibGatherMid

open Idealize.ShloMosaic Idealize.ShloMosaic.ValueIdx

variable {α : Type}

/-- Those dimension numbers for an operand `[A, N, C]`, start indices `[R, W, 1]` and result `[A, R, W, C]`. -/
abbrev midDims (A N C R W : Nat)
    (wf : GatherDims.WF ⟨3, ![A, N, C]⟩ ⟨3, ![R, W, 1]⟩ ⟨4, ![A, R, W, C]⟩ [0, 3] [1] [] [1] [] 2 ![A, 1, C]) :
    GatherDims ⟨3, ![A, N, C]⟩ ⟨3, ![R, W, 1]⟩ ⟨4, ![A, R, W, C]⟩ where
  offsetDims := [0, 3]
  collapsedSliceDims := [1]
  operandBatchingDims := []
  startIndicesBatchingDims := []
  startIndexMap := [1]
  indexVectorDim := 2
  sliceSizes := ![A, 1, C]
  wf := wf

/-- The start-indices index `[r, w, 0]` that result index `(a, r, w, c)` reads. -/
abbrev midIdx {A R W C : Nat} (y : (⟨4, ![A, R, W, C]⟩ : Shape).Idx) : (⟨3, ![R, W, 1]⟩ : Shape).Idx :=
  fun b => match b with
    | ⟨0, _⟩ => ⟨(y 1).val, (y 1).isLt⟩
    | ⟨1, _⟩ => ⟨(y 2).val, (y 2).isLt⟩
    | ⟨2, _⟩ => ⟨0, Nat.one_pos⟩

section Coordinates

variable {A N C R W wd : Nat}
  (wf : GatherDims.WF ⟨3, ![A, N, C]⟩ ⟨3, ![R, W, 1]⟩ ⟨4, ![A, R, W, C]⟩ [0, 3] [1] [] [1] [] 2 ![A, 1, C])
  (idx : IVec ⟨3, ![R, W, 1]⟩ wd) (y : (⟨4, ![A, R, W, C]⟩ : Shape).Idx)

private theorem ne01 : ¬(0 : Fin 3) = 1 := by decide
private theorem ne21 : ¬(2 : Fin 3) = 1 := by decide

/-- On the operand's first axis nothing is started or collapsed: the coordinate is the result's first. -/
theorem coord0 : (midDims A N C R W wf).start y idx 0 + (midDims A N C R W wf).offCoord y 0 = (y 0).val := by
  unfold GatherDims.start GatherDims.offCoord
  rw [dif_neg (fun h => ne01 (List.mem_singleton.mp h)),
    dif_pos ((GatherDims.mem_sKept _ _).mpr ⟨fun h => ne01 (List.mem_singleton.mp h), List.not_mem_nil⟩), Nat.zero_add]
  rfl

/-- On the last axis likewise: the coordinate is the result's last. -/
theorem coord2 : (midDims A N C R W wf).start y idx 2 + (midDims A N C R W wf).offCoord y 2 = (y 3).val := by
  unfold GatherDims.start GatherDims.offCoord
  rw [dif_neg (fun h => ne21 (List.mem_singleton.mp h)),
    dif_pos ((GatherDims.mem_sKept _ _).mpr ⟨fun h => ne21 (List.mem_singleton.mp h), List.not_mem_nil⟩), Nat.zero_add]
  rfl

/-- On the middle axis, collapsed, the coordinate is the clamped start index. -/
theorem coord1 : (midDims A N C R W wf).start y idx 1 + (midDims A N C R W wf).offCoord y 1
    = min (idx (midIdx y)).toInt.toNat (N - 1) := by
  unfold GatherDims.start GatherDims.offCoord
  rw [dif_pos (show (1 : Fin 3) ∈ (midDims A N C R W wf).startIndexMap from List.mem_singleton.mpr rfl),
    dif_neg (fun h => ((GatherDims.mem_sKept _ _).mp h).1 (List.mem_singleton.mpr rfl)), Nat.add_zero]
  have hsi : (midDims A N C R W wf).siIdx y ⟨List.idxOf (1 : Fin 3) (midDims A N C R W wf).startIndexMap,
      List.idxOf_lt_length_iff.2 (List.mem_singleton.mpr rfl)⟩ = midIdx y := by
    funext b; refine Fin.ext ?_
    match b with
    | ⟨0, _⟩ => rfl
    | ⟨1, _⟩ => rfl
    | ⟨2, _⟩ => rfl
  rw [hsi]
  rfl

end Coordinates

/-- THE GATHER READ AT `(a, r, w, c)`: the operand at `(a, s, c)`, `s` the start index `idx[r, w, 0]` read signed and
    clamped into `[0, N − 1]`. -/
theorem gather_mid_apply {A N C R W wd : Nat} (hN : 0 < N)
    (wf : GatherDims.WF ⟨3, ![A, N, C]⟩ ⟨3, ![R, W, 1]⟩ ⟨4, ![A, R, W, C]⟩ [0, 3] [1] [] [1] [] 2 ![A, 1, C])
    (x : (⟨3, ![A, N, C]⟩ : Shape).Idx → α) (idx : IVec ⟨3, ![R, W, 1]⟩ wd) (y : (⟨4, ![A, R, W, C]⟩ : Shape).Idx) :
    Host.gather (midDims A N C R W wf) x idx y
      = x (ix3 (n0 := A) (n1 := N) (n2 := C) ⟨(y 0).val, (y 0).isLt⟩
          ⟨min (idx (midIdx y)).toInt.toNat (N - 1), by omega⟩ ⟨(y 3).val, (y 3).isLt⟩) := by
  unfold Host.gather
  congr 1
  funext a
  refine Fin.ext ?_
  show (midDims A N C R W wf).start y idx a + (midDims A N C R W wf).batchCoord y a + (midDims A N C R W wf).offCoord y a = _
  rw [GatherDims.batchCoord_eq_zero _ _ _ List.not_mem_nil, Nat.add_zero]
  match a with
  | ⟨0, _⟩ => exact coord0 wf idx y
  | ⟨1, _⟩ => exact coord1 wf idx y
  | ⟨2, _⟩ => exact coord2 wf idx y

/-! ## The start index as a word -/

open Idealize.ShloMosaic.StableHlo.Predicate

/-- jnp's wrap of a negative index, on a sum of two naturals that stays below 2³¹: the sum is not negative as a signed
    word, so the wrap's select keeps it, and it is the word of `t + w`. -/
theorem wrapped_sum (t w : Nat) (k : BitVec 32) (h : t + w < 2 ^ 31) :
    Scalar.select (IntOp.cmpi .slt (IntOp.addi (BitVec.ofNat 32 t) (BitVec.ofNat 32 w)) 0#32)
        (IntOp.addi (IntOp.addi (BitVec.ofNat 32 t) (BitVec.ofNat 32 w)) k)
        (IntOp.addi (BitVec.ofNat 32 t) (BitVec.ofNat 32 w))
      = BitVec.ofNat 32 (t + w) := by
  have e : IntOp.addi (BitVec.ofNat 32 t) (BitVec.ofNat 32 w) = BitVec.ofNat 32 (t + w) := by
    unfold IntOp.addi; exact (BitVec.ofNat_add t w).symm
  rw [e]
  have hc : IntOp.cmpi .slt (BitVec.ofNat 32 (t + w)) 0#32 = 0#1 := by
    refine eq_zero_of_ne_one fun h1 => ?_
    have := (slt_ofNat_iff (t + w) 0 h (by decide)).mp h1
    omega
  rw [hc, select_zero]

/-- A natural below 2³¹, as a 32-bit word read signed and clamped at zero, is itself. -/
theorem toNat_toInt_ofNat (n : Nat) (h : n < 2 ^ 31) : (BitVec.ofNat 32 n).toInt.toNat = n := by
  rw [toInt_ofNat_small n h]; exact Int.toNat_natCast n

end Cert.LibGatherMid

end
-- ==== Proof.RefValue.lean ====
/-
  The reference's result is `windowsFlat` of the padded argument.

  The reference builds the index array `idx[t, w] = t + w` (two iotas broadcast and added), passes it through jnp's
  wrap of negative indices (`select (idx < 0) (idx + 2018) idx`), gathers rows of the padded array along the time
  axis, `win[b, t, w, ch] = xp[b, idx[t, w], ch]`, and reshapes [64, 2000, 19, 26] to [128000, 494]. Since
  `t + w ≤ 1999 + 18 = 2017` the wrap is not taken and the gather's clamp into [0, 2017] changes nothing, so
  `win[b, t, w, ch] = xp[b, t + w, ch]`; and row `r`, column `q` of the reshape is `(r / 2000, r % 2000, q / 26, q % 26)`.
-/
import proofs.«105416_j84963043050043_1_alg».proof.Proof.Gen.ReferenceIdeal.Read
import proofs.«105416_j84963043050043_1_alg».proof.Proof.Windows
import proofs.«105416_j84963043050043_1_alg».proof.Proof.LibGatherMid

noncomputable section

namespace Cert.ReferenceIdeal.RefValue

open Cert.ReferenceIdeal Cert.ReferenceIdeal.Gen Cert.ReferenceIdeal.Read
open Idealize.ShloMosaic Idealize.ShloMosaic.ValueIdx Cert.Windows Cert.LibGatherMid

variable {F : FTy → Type} [FloatOps F]

/-- The start index the gather reads at `(t, w, 0)` is the word of `t + w`. -/
theorem start_index (i : S2000x19x1.Idx) :
    val_main_v13 (F := F) i = BitVec.ofNat 32 ((i 0).val + (i 1).val) := by
  have h0 : (i 0).val < 2000 := (i 0).isLt
  have h1 : (i 1).val < 19 := (i 1).isLt
  rw [val_main_v13_apply, val_main_v12_apply, val_main_v9_apply, val_main_v11_apply, val_main_v7_apply,
    val_main_v5_apply, val_main_v6_apply, val_main_v2_apply, val_main_v4_apply, val_main_v1_apply, val_main_v3_apply,
    val_main_v8_apply, val_main_c_0_apply, val_main_v10_apply, val_main_c_1_apply]
  exact wrapped_sum (i 0).val (i 1).val 2018#32 (by omega)

/-- The reference's dimension numbers are the middle-axis gather's. -/
theorem dims_eq : gather_S64x2018x26_S2000x19x1_S64x2000x19x26_03_1_n_n_1_2_64126
    = midDims 64 2018 26 2000 19 gather_S64x2018x26_S2000x19x1_S64x2000x19x26_03_1_n_n_1_2_64126_wf := rfl

/-- THE REFERENCE'S RESULT, as one function of the padded argument. -/
theorem result_eq (x0 : (⟨S64x2000x26, .f32⟩ : BufTy).Contents (Elt F)) :
    val_main_v15 (F := F) x0 = windowsFlat (val_main_v0 (F := F) x0) := by
  funext i
  have h0 : (i 0).val < 128000 := (i 0).isLt
  have h1 : (i 1).val < 494 := (i 1).isLt
  rw [val_main_v15_apply]
  unfold val_main_v14
  rw [dims_eq]
  refine (gather_mid_apply (by decide) _ (val_main_v0 (F := F) x0) (val_main_v13 (F := F)) (idx_main_v15 i)).trans ?_
  unfold windowsFlat
  refine congrArg (val_main_v0 (F := F) x0) ?_
  funext a
  refine Fin.ext ?_
  match a with
  | ⟨0, _⟩ =>
    show ((i 0).val * 494 + (i 1).val) / 988000 = (i 0).val / 2000
    omega
  | ⟨1, _⟩ =>
    show min (val_main_v13 (F := F) (midIdx (idx_main_v15 i))).toInt.toNat (2018 - 1) = (i 0).val % 2000 + (i 1).val / 26
    have e : val_main_v13 (F := F) (midIdx (idx_main_v15 i))
        = BitVec.ofNat 32 (((i 0).val * 494 + (i 1).val) / 494 % 2000 + ((i 0).val * 494 + (i 1).val) / 26 % 19) :=
      start_index (midIdx (idx_main_v15 i))
    rw [e, toNat_toInt_ofNat _ (by omega)]
    omega
  | ⟨2, _⟩ =>
    show ((i 0).val * 494 + (i 1).val) % 26 = (i 1).val % 26
    omega

end Cert.ReferenceIdeal.RefValue

end
-- ==== Proof.lean ====
/-
  The kernel and its reference both unfold a batch of time series into overlapping windows: with `xp` the input padded by
  nine zero rows at each end of the time axis, row `2000 b + t` and column `26 w + ch` of the [128000, 494] result is
  `xp[b, t + w, ch]` (`Cert.Windows.windowsFlat`). No arithmetic is done on the entries, so the equality holds for
  every extended real and the finiteness of the inputs is never used.

  * The kernel program pads, then one grid point per batch copies the nineteen shifted row ranges of its padded block side
    by side (Proof/KernelBody.lean); the 64 output blocks tile the [64, 2000, 494] array, which the last host operation
    reshapes (Proof/KernelValue.lean: `KValue.run`).
  * The reference pads the same way, gathers rows at the start indices `t + w` — never negative and at most 2017, so
    neither jnp's negative-index wrap nor the gather's clamp acts — and reshapes [64, 2000, 19, 26]
    (Proof/RefValue.lean over Proof/LibGatherMid.lean: `RefValue.result_eq`).

  Both pads are the same term of the argument, so once the arguments agree the two results are one term. The three
  frames are the programs' runs with the result dropped; the idealization rewrote nothing, so `preserves` is `True`.
-/
import proofs.«105416_j84963043050043_1_alg».proof.Defs
import proofs.«105416_j84963043050043_1_alg».proof.Proof.Gen.Kernel
import proofs.«105416_j84963043050043_1_alg».proof.Proof.Gen.Kernel.Skeleton
import proofs.«105416_j84963043050043_1_alg».proof.Proof.Gen.Kernel.Launch
import proofs.«105416_j84963043050043_1_alg».proof.Proof.Gen.Kernel.Points
import proofs.«105416_j84963043050043_1_alg».proof.Proof.Gen.Kernel.Frame
import proofs.«105416_j84963043050043_1_alg».proof.Proof.Gen.KernelIdeal
import proofs.«105416_j84963043050043_1_alg».proof.Proof.Gen.KernelIdeal.Skeleton
import proofs.«105416_j84963043050043_1_alg».proof.Proof.Gen.KernelIdeal.Launch
import proofs.«105416_j84963043050043_1_alg».proof.Proof.Gen.KernelIdeal.Points
import proofs.«105416_j84963043050043_1_alg».proof.Proof.Gen.KernelIdeal.Frame
import proofs.«105416_j84963043050043_1_alg».proof.Proof.Gen.ReferenceIdeal
import proofs.«105416_j84963043050043_1_alg».proof.Proof.Gen.Pre_finite_inputs
import proofs.«105416_j84963043050043_1_alg».proof.Proof.Gen.ReferenceIdeal.Run
import proofs.«105416_j84963043050043_1_alg».proof.Proof.Gen.ReferenceIdeal.Read
import proofs.«105416_j84963043050043_1_alg».proof.Proof.KernelValue
import proofs.«105416_j84963043050043_1_alg».proof.Proof.RefValue
import Idealize.ShloMosaic.Adequacy
import Idealize.ShloMosaic.Init

noncomputable section

namespace Cert.Proof

open Idealize.ShloMosaic Idealize.SL.Sem

/-- The kernel program as printed runs and keeps its argument. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the flattened windows of the zero-padded argument. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
